-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : IVec S2x500000 32) (main_arg3 : IVec S2x500000 32) (main_arg4 : FVec F S256x128 .f32) (main_arg5 : FVec F S128 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_v13 main_v16
-- ==== Kernel.lean ====
abbrev S100000x256 : Shape := ⟨2, ![100000, 256]⟩
abbrev S2x1600000 : Shape := ⟨2, ![2, 1600000]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S2x1000000 : Shape := ⟨2, ![2, 1000000]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S20000x64 : Shape := ⟨2, ![20000, 64]⟩
abbrev S20000x1 : Shape := ⟨2, ![20000, 1]⟩
abbrev S1x64 : Shape := ⟨2, ![1, 64]⟩
abbrev S20000 : Shape := ⟨1, ![20000]⟩

abbrev nBuf : Space → Nat
  | .hbm => 111
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S2x500000, .i32⟩
  | .hbm, ⟨3, _⟩ => ⟨S2x500000, .i32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S2x1000000, .i32⟩
  | .hbm, ⟨87, _⟩ => ⟨S1x1000000, .i32⟩
  | .hbm, ⟨88, _⟩ => ⟨S1000000, .i32⟩
  | .hbm, ⟨89, _⟩ => ⟨S_, .i32⟩
  | .hbm, ⟨90, _⟩ => ⟨S1000000, .i32⟩
  | .hbm, ⟨91, _⟩ => ⟨S1000000, .i1⟩
  | .hbm, ⟨92, _⟩ => ⟨S_, .i32⟩
  | .hbm, ⟨93, _⟩ => ⟨S1000000, .i32⟩
  | .hbm, ⟨94, _⟩ => ⟨S1000000, .i32⟩
  | .hbm, ⟨95, _⟩ => ⟨S1000000, .i32⟩
  | .hbm, ⟨96, _⟩ => ⟨S1000000x1, .i32⟩
  | .hbm, ⟨97, _⟩ => ⟨S1000000x64, .f32⟩
  | .hbm, ⟨98, _⟩ => ⟨S1x1000000, .i32⟩
  | .hbm, ⟨99, _⟩ => ⟨S1000000, .i32⟩
  | .hbm, ⟨100, _⟩ => ⟨S_, .i32⟩
  | .hbm, ⟨101, _⟩ => ⟨S1000000, .i32⟩
  | .hbm, ⟨102, _⟩ => ⟨S1000000, .i1⟩
  | .hbm, ⟨103, _⟩ => ⟨S_, .i32⟩
  | .hbm, ⟨104, _⟩ => ⟨S1000000, .i32⟩
  | .hbm, ⟨105, _⟩ => ⟨S1000000, .i32⟩
  | .hbm, ⟨106, _⟩ => ⟨S1000000, .i32⟩
  | .hbm, ⟨107, _⟩ => ⟨S1000000x1, .i32⟩
  | .hbm, ⟨108, _⟩ => ⟨S1000000x64, .f32⟩
  | .hbm, ⟨109, _⟩ => ⟨S1000000x1, .f32⟩
  | .hbm, ⟨110, _⟩ => ⟨S1000000, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S20000x64, .f32⟩
  | .local _ .vmem, ⟨16, _⟩ => ⟨S20000x64, .f32⟩
  | .local _ .vmem, ⟨17, _⟩ => ⟨S20000x64, .f32⟩
  | .local _ .vmem, ⟨18, _⟩ => ⟨S20000x64, .f32⟩
  | .local _ .vmem, ⟨19, _⟩ => ⟨S64, .f32⟩
  | .local _ .vmem, ⟨20, _⟩ => ⟨S20000x1, .f32⟩
  | .local _ .vmem, ⟨21, _⟩ => ⟨S20000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S20000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64_S64_0 : ∀ a, (![0] : Fin 1 → Nat) a + S64.size a ≤ S64.size a
  h_S64 : 0 < S64.numel
  shapeCasts_S64_S1x64 : S64.ShapeCasts S1x64
  broadcasts_S1x64_S20000x64 : S1x64.Broadcasts S20000x64
  reduces_S20000x64_S20000 : S20000x64.Reduces [1] S20000
  shapeCasts_S20000_S20000x1 : S20000.ShapeCasts S20000x1
  inb_S20000x1_S20000x1_0_0 : ∀ a, (![0, 0] : Fin 2 → Nat) a + S20000x1.size a ≤ S20000x1.size a
  h_S20000x1 : 0 < S20000x1.numel
  shapeCasts_S1000000x1_S1000000 : S1000000x1.ShapeCasts S1000000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1000000x1_S1000000x64_1_0_n_n_0_1_164_wf : GatherDims.WF S100000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S1000000x64.size a
  hwx3_0 : ∀ i : grid3.Coords, EltTy.bits .f32 = 32 ∨ (Rect.block (s := S1000000x64) S20000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x64.size a ≤ S1000000x64.size a
  hwx3_1 : ∀ i : grid3.Coords, EltTy.bits .f32 = 32 ∨ (Rect.block (s := S1000000x64) S20000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S20000x1.size a ≤ S1000000x1.size a
  hwx3_3 : ∀ i : grid3.Coords, EltTy.bits .f32 = 32 ∨ (Rect.block (s := S1000000x1) S20000x1.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S20000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S20000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S2x1000000 : Shape := ⟨2, ![2, 1000000]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S2x500000, .i32⟩
  | .hbm, ⟨3, _⟩ => ⟨S2x500000, .i32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S2x1000000, .i32⟩
  | .hbm, ⟨95, _⟩ => ⟨S1x1000000, .i32⟩
  | .hbm, ⟨96, _⟩ => ⟨S1000000, .i32⟩
  | .hbm, ⟨97, _⟩ => ⟨S_, .i32⟩
  | .hbm, ⟨98, _⟩ => ⟨S1000000, .i32⟩
  | .hbm, ⟨99, _⟩ => ⟨S1000000, .i1⟩
  | .hbm, ⟨100, _⟩ => ⟨S_, .i32⟩
  | .hbm, ⟨101, _⟩ => ⟨S1000000, .i32⟩
  | .hbm, ⟨102, _⟩ => ⟨S1000000, .i32⟩
  | .hbm, ⟨103, _⟩ => ⟨S1000000, .i32⟩
  | .hbm, ⟨104, _⟩ => ⟨S1000000x1, .i32⟩
  | .hbm, ⟨105, _⟩ => ⟨S1000000x64, .f32⟩
  | .hbm, ⟨106, _⟩ => ⟨S1x1000000, .i32⟩
  | .hbm, ⟨107, _⟩ => ⟨S1000000, .i32⟩
  | .hbm, ⟨108, _⟩ => ⟨S_, .i32⟩
  | .hbm, ⟨109, _⟩ => ⟨S1000000, .i32⟩
  | .hbm, ⟨110, _⟩ => ⟨S1000000, .i1⟩
  | .hbm, ⟨111, _⟩ => ⟨S_, .i32⟩
  | .hbm, ⟨112, _⟩ => ⟨S1000000, .i32⟩
  | .hbm, ⟨113, _⟩ => ⟨S1000000, .i32⟩
  | .hbm, ⟨114, _⟩ => ⟨S1000000, .i32⟩
  | .hbm, ⟨115, _⟩ => ⟨S1000000x1, .i32⟩
  | .hbm, ⟨116, _⟩ => ⟨S1000000x64, .f32⟩
  | .hbm, ⟨117, _⟩ => ⟨S1000000x64, .f32⟩
  | .hbm, ⟨118, _⟩ => ⟨S_, .f32⟩
  | .hbm, ⟨119, _⟩ => ⟨S1000000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x64_S1000000_d1 : S1000000x64.ReducesTo [1] S1000000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1000000x1_S1000000x64_1_0_n_n_0_1_164_wf : GatherDims.WF S100000x64 S1000000x1 S1000000x64 [1] [0] [] [0] [] 1 ![1, 64]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.Region0.lean ====
/-
  The first linear layer's region, read as a value: whatever the arrays hold when the region is entered, it leaves in
  its output array the matrix product of the node features with the first weight matrix, row block by row block.
-/
import proofs.«153153_j22892175688228_1_alg».proof.Proof.Gen.KernelIdeal.Frame
import proofs.«153153_j22892175688228_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Region0

/-! ## A row block's product and the whole product, entry by entry -/

/-- The left operand's index of the block product keeps the output's row. -/
theorem lhs_block_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
/-- Its column is the summation index. -/
theorem lhs_block_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
/-- The right operand's row is the summation index. -/
theorem rhs_block_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
/-- Its column is the output's column. -/
theorem rhs_block_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- The same four facts for the product of the whole arrays. -/
theorem lhs_whole_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem lhs_whole_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q
theorem rhs_whole_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q
theorem rhs_whole_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- The body's payload at row `p`, column `q` of the block: the row of the feature block against the column of the
    weights, summed over the 256 features (the roundings to the narrow format are the identity on extended reals and
    the accumulator starts at zero). -/
theorem blockDot (x : Vec Ideal S10000x256 .f32) (w : Vec Ideal S256x128 .f32) (p : Fin 10000) (q : Fin 128) :
    k0_pay1 (F := Ideal) x w (ix2 p q) = ∑ k : Fin 256, x (ix2 p k) * w (ix2 k q) := by
  unfold k0_pay1
  simp only [matmul]
  rw [Ideal.matmul_constant_zero_apply, ← Equiv.sum_comp (contrEquiv1 dot_S10000x256_S256x128_S10000x128_1_0_0_1_n_n 256 rfl rfl).symm]
  refine Finset.sum_congr rfl fun k _ => ?_
  have hk := contrEquiv1_symm_val dot_S10000x256_S256x128_S10000x128_1_0_0_1_n_n 256 rfl rfl k
  have el : dot_S10000x256_S256x128_S10000x128_1_0_0_1_n_n.lhsIdx (ix2 p q) ((contrEquiv1 dot_S10000x256_S256x128_S10000x128_1_0_0_1_n_n 256 rfl rfl).symm k) = ix2 p k := funext fun a => Fin.ext (by
    match a with
    | ⟨0, _⟩ => exact lhs_block_0 _ _
    | ⟨1, _⟩ => exact (lhs_block_1 _ _).trans hk)
  have er : dot_S10000x256_S256x128_S10000x128_1_0_0_1_n_n.rhsIdx (ix2 p q) ((contrEquiv1 dot_S10000x256_S256x128_S10000x128_1_0_0_1_n_n 256 rfl rfl).symm k) = ix2 k q := funext fun a => Fin.ext (by
    match a with
    | ⟨0, _⟩ => exact (rhs_block_0 _ _).trans hk
    | ⟨1, _⟩ => exact rhs_block_1 _ _)
  rw [truncf_apply, truncf_apply, el, er]

/-- The host's product of the whole arrays at row `p`, column `q`: the same sum over the 256 features. -/
theorem wholeDot (X : FVec Ideal Cert.ReferenceIdeal.S100000x256 .f32) (W : FVec Ideal Cert.ReferenceIdeal.S256x128 .f32) (p : Fin 100000) (q : Fin 128) :
    Host.dotGeneral (F := Ideal) (φ₁ := .f32) (φ₂ := .f32) Cert.ReferenceIdeal.dot_S100000x256_S256x128_S100000x128_1_0_0_1_n_n none X W (ix2 p q)
      = ∑ k : Fin 256, X (ix2 p k) * W (ix2 k q) := by
  simp only [Host.dotGeneral]
  rw [Ideal.dotGeneral_apply, ← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 p q) ((contrEquiv1 Cert.ReferenceIdeal.dot_S100000x256_S256x128_S100000x128_1_0_0_1_n_n 256 rfl rfl).symm k) = ix2 p k := funext fun a => Fin.ext (by
    match a with
    | ⟨0, _⟩ => exact lhs_whole_0 _ _
    | ⟨1, _⟩ => exact (lhs_whole_1 _ _).trans hk)
  have er : Cert.ReferenceIdeal.dot_S100000x256_S256x128_S100000x128_1_0_0_1_n_n.rhsIdx (ix2 p q) ((contrEquiv1 Cert.ReferenceIdeal.dot_S100000x256_S256x128_S100000x128_1_0_0_1_n_n 256 rfl rfl).symm k) = ix2 k q := funext fun a => Fin.ext (by
    match a with
    | ⟨0, _⟩ => exact (rhs_whole_0 _ _).trans hk
    | ⟨1, _⟩ => exact rhs_whole_1 _ _)
  rw [el, er]

/-! ## From the row blocks to the array -/

variable (V : (c : Dev nD) → (b : Ref sig .tc) → Buf (Elt Ideal) ((c : Thread nD τ).loc b))

/-- Both offsets of an access to a whole block are zero. -/
theorem zero_offsets : (![0, 0] : Fin 2 → Nat) = fun _ => 0 := funext fun a => by fin_cases a <;> rfl

/-- The block indices over the ten grid points: at point `t` the features' block and the output's block are row block
    `t`, in the only column block; the weights are one block, the whole matrix. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the product of the whole arrays: row `p` of the block is row
    `10000 t + p` of the features, and the weights are the same matrix at every point. -/
theorem flushed_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x256_S256x128_S100000x128_1_0_0_1_n_n none
        (V c main_arg0 : FVec Ideal Cert.ReferenceIdeal.S100000x256 .f32) (V c main_arg4 : FVec Ideal Cert.ReferenceIdeal.S256x128 .f32)) := by
  show (cfg0.win 2).cut (grid0.coords t) ((dat0 (F := Ideal) V c).after 2 t) = _
  rw [after0_2]
  unfold out0_2
  rw [View.canon_unit_zero zero_offsets]
  simp only [View.ld_unit_zero (S := S10000x256) zero_offsets, View.ld_unit_zero (S := S256x128) zero_offsets]
  obtain ⟨e00, e01, e10, e11, e20, e21⟩ := block_indices t
  have ht : t.val < 10 := t.isLt
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = Host.dotGeneral (F := Ideal) (φ₁ := .f32) (φ₂ := .f32) Cert.ReferenceIdeal.dot_S100000x256_S256x128_S100000x128_1_0_0_1_n_n none
        (V c main_arg0 : FVec Ideal Cert.ReferenceIdeal.S100000x256 .f32) (V c main_arg4 : FVec Ideal Cert.ReferenceIdeal.S256x128 .f32)
        (((cfg0.win 2).blk t).view.emb (ix2 p q))
  have hrow : t.val * 10000 + p.val < 100000 := by omega
  have he : ((cfg0.win 2).blk t).view.emb (ix2 p q) = ix2 (⟨t.val * 10000 + p.val, hrow⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [he, wholeDot, blockDot]
  refine Finset.sum_congr rfl fun k _ => ?_
  have h0 : iblk0 V c 0 t (ix2 p k) = (V c main_arg0 : FVec Ideal Cert.ReferenceIdeal.S100000x256 .f32) (ix2 (⟨t.val * 10000 + p.val, hrow⟩ : Fin 100000) k) := by
    show (V c main_arg0 : FVec Ideal Cert.ReferenceIdeal.S100000x256 .f32) (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 256 + 1 * k.val = k.val; omega
  have h1 : iblk0 V c 1 t (ix2 k q) = (V c main_arg4 : FVec Ideal Cert.ReferenceIdeal.S256x128 .f32) (ix2 k q) := by
    show (V c main_arg4 : FVec Ideal Cert.ReferenceIdeal.S256x128 .f32) (((cfg0.win 1).blk t).view.emb (ix2 k q)) = _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  rw [h0, h1]

/-- An entry of the array is in point `t`'s block exactly when each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every entry of the output array is written back by some point: row `r` lies in row block `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  have hlt : (i 0).val / 10000 < grid0.N := by rw [hN]; omega
  refine ⟨⟨(i 0).val / 10000, hlt⟩, flush0_2 _, ?_⟩
  obtain ⟨-, -, -, -, e20, e21⟩ := block_indices ⟨(i 0).val / 10000, hlt⟩
  have e20' : win0_2.index ⟨(i 0).val / 10000, hlt⟩ (0 : Fin 2) = (i 0).val / 10000 := e20
  rw [mem_blk]
  intro a
  match a with
  | ⟨0, _⟩ => show win0_2.index ⟨(i 0).val / 10000, hlt⟩ (0 : Fin 2) * 10000 ≤ (i 0).val ∧ (i 0).val < win0_2.index ⟨(i 0).val / 10000, hlt⟩ (0 : Fin 2) * 10000 + 10000; omega
  | ⟨1, _⟩ => show win0_2.index ⟨(i 0).val / 10000, hlt⟩ (1 : Fin 2) * 128 ≤ (i 1).val ∧ (i 1).val < win0_2.index ⟨(i 0).val / 10000, hlt⟩ (1 : Fin 2) * 128 + 128; omega

/-- After region 0 the output array is the host's dot_general of the two input arrays as entered. -/
theorem final (c : Dev nD) :
    (dat0 (F := Ideal) V c).arrAt 2 cfg0.N
      = Host.dotGeneral (F := Ideal) (φ₁ := .f32) (φ₂ := .f32) Cert.ReferenceIdeal.dot_S100000x256_S256x128_S100000x128_1_0_0_1_n_n none
          (V c main_arg0 : FVec Ideal Cert.ReferenceIdeal.S100000x256 .f32) (V c main_arg4 : FVec Ideal Cert.ReferenceIdeal.S256x128 .f32) :=
  (dat0 (F := Ideal) V c).arrAt_eq_of_cover 2 _ (fun t _ => flushed_eq V c t) cover

end Cert.KernelIdeal.Region0

end
-- ==== Proof.Region1.lean ====
/-
  The bias-and-rectify region, read as a value: it leaves max(a + b, 0) in its output array, the bias b broadcast
  along the rows.
-/
import proofs.«153153_j22892175688228_1_alg».proof.Proof.Gen.KernelIdeal.Frame
import proofs.«153153_j22892175688228_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Region1

variable (V : (c : Dev nD) → (b : Ref sig .tc) → Buf (Elt Ideal) ((c : Thread nD τ).loc b))

/-! ## One element of the result -/

/-- One element of the result: an aggregated feature x plus its lane's bias y, clamped below at zero. -/
abbrev pointVal (x y : Elt Ideal .f32) : Elt Ideal .f32 := max (x + y) (Ideal.ofBits .f32 0x00000000#32)

/-- The whole result as one function of the feature array A and the bias b: at row r, lane q it is
    max(A(r, q) + b(q), 0). The row plays no part in the bias. -/
abbrev G (A : S100000x128.Idx → Elt Ideal .f32) (b : S128.Idx → Elt Ideal .f32) : S100000x128.Idx → Elt Ideal .f32 :=
  fun i => pointVal (A i) (b (ix1 (i 1)))

/-- The body's payload on a block of 10000 rows, read at row p, lane q: the block's element there plus the bias's
    lane q, clamped at zero. The bias is first seen as a single row (a unit axis in front), that row is repeated down
    the 10000 rows, so the element read is the row's lane q whatever p is. -/
theorem blockVal (a : Vec Ideal S10000x128 .f32) (b : Vec Ideal S128 .f32) (p : Fin 10000) (q : Fin 128) :
    k1_pay1 (F := Ideal) a b (ix2 p q) = pointVal (a (ix2 p q)) (b (ix1 q)) := by
  unfold k1_pay1
  rw [maximumf_apply, addf_apply, broadcast_apply, shapeCast_self]
  -- the repeated row at (p, q) is the single row at (0, q): axis 0 of the operand has extent 1, axis 1 is kept
  rw [broadcastTo_apply (shapeCast S1x128 b shapeCasts_S128_S1x128) broadcasts_S1x128_S10000x128 (ix2 p q) (ix2 (0 : Fin 1) q)
    (fun a => match a with
      | ⟨0, _⟩ => by show 0 = if (1 : Nat) = 1 then 0 else p.val; rw [if_pos rfl]
      | ⟨1, _⟩ => by show q.val = if (128 : Nat) = 1 then 0 else q.val; rw [if_neg (by decide)])]
  -- the single row at (0, q) is the bias at q: the unit axis in front is dropped
  rw [shapeCast_addUnit_apply ![128] b shapeCasts_S128_S1x128 (ix2 (0 : Fin 1) q)]
  exact congrArg (fun z => pointVal (a (ix2 p q)) (b z)) (funext fun d => match d with | ⟨0, _⟩ => rfl)

/-- The three whole-array operations of the right-hand side, read at an index i = (r, q): the bias as a 1 x 128 row
    (its lane on axis 1), that row laid along all 100000 rows (axis 0 of extent 1 is read at 0, axis 1 kept), added to
    A, and the maximum with the scalar zero laid over the whole shape. It is G at i. -/
theorem wholeVal (A : S100000x128.Idx → Elt Ideal .f32) (b : S128.Idx → Elt Ideal .f32) (i : S100000x128.Idx) :
    maximumf
          (addf A
            (broadcastInDim Cert.ReferenceIdeal.S100000x128 ![0, 1] Cert.ReferenceIdeal.Facts₀.bcast_S1x128_S100000x128_0_1
              (broadcastInDim Cert.ReferenceIdeal.S1x128 ![1] Cert.ReferenceIdeal.Facts₀.bcast_S128_S1x128_1 b)))
          (broadcastInDim Cert.ReferenceIdeal.S100000x128 ![] Cert.ReferenceIdeal.Facts₀.bcast_S_S100000x128
            (constant (F := Ideal) Cert.ReferenceIdeal.S_ .f32 0x00000000#32)) i = G A b i := by
  rw [maximumf_apply, addf_apply]
  rw [broadcastInDim_apply _ Cert.ReferenceIdeal.Facts₀.bcast_S1x128_S100000x128_0_1 _ i (ix2 (0 : Fin 1) (i 1))
    (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]
  rw [broadcastInDim_apply _ Cert.ReferenceIdeal.Facts₀.bcast_S128_S1x128_1 b (ix2 (0 : Fin 1) (i 1)) (ix1 (i 1))
    (fun a => match a with
      | ⟨0, _⟩ => by show (i 1).val = if (128 : Nat) = 1 then 0 else (i 1).val; rw [if_neg (by decide)])]
  rw [broadcastInDim_apply _ Cert.ReferenceIdeal.Facts₀.bcast_S_S100000x128 _ i ix0 (fun a => a.elim0)]
  rfl

/-! ## From the blocks to the array -/

theorem zeroOffset2 : (![0, 0] : Fin 2 → Nat) = fun _ => 0 := funext fun a => by fin_cases a <;> rfl
theorem zeroOffset1 : (![0] : Fin 1 → Nat) = fun _ => 0 := funext fun a => by fin_cases a <;> rfl

/-- Where the windows sit at grid point t: the feature window and the output window both at block (t, 0), the bias
    window always at block 0 (the whole bias). Decided once over the ten points. -/
theorem blockIndex : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of G of the arrays as the region finds them: the payload at (p, q) of the
    block reads the feature block at (p, q), which is the feature array at row t * 10000 + p, lane q, the very place
    the output block's (p, q) lands; and the bias block's lane q is the bias's lane q. -/
theorem flushed_eq (c : Dev nD) (t : Fin cfg1.N) :
    (dat1 (F := Ideal) V c).flushed 2 t = ((cfg1.win 2).blk t).view.read (Elt Ideal) (G (V c main_v45) (V c main_arg5)) := by
  show (cfg1.win 2).cut (grid1.coords t) ((dat1 (F := Ideal) V c).after 2 t) = _
  rw [after1_2]
  unfold out1_2
  rw [View.canon_unit_zero zeroOffset2]
  simp only [View.ld_unit_zero (S := S10000x128) zeroOffset2, View.ld_unit_zero (S := S128) zeroOffset1]
  obtain ⟨e0, e1, e2, e3, e4⟩ := blockIndex t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (ix2 p q)
    = G (V c main_v45) (V c main_arg5) (((cfg1.win 2).blk t).view.emb (ix2 p q))
  refine (blockVal _ _ p q).trans ?_
  show pointVal (V c main_v45 (((cfg1.win 0).blk t).view.emb (ix2 p q))) (V c main_arg5 (((cfg1.win 1).blk t).view.emb (ix1 q)))
    = pointVal (V c main_v45 (((cfg1.win 2).blk t).view.emb (ix2 p q)))
        (V c main_arg5 (ix1 ((((cfg1.win 2).blk t).view.emb (ix2 p q)) 1)))
  -- a block's coordinate in its array is block index * block extent + the coordinate inside the block
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix1 q) = ix1 ((((cfg1.win 2).blk t).view.emb (ix2 p q)) 1) := by
    funext a; apply Fin.ext
    match a with
    | ⟨0, _⟩ => show win1_1.index t (0 : Fin 1) * 128 + 1 * q.val = win1_2.index t (1 : Fin 2) * 128 + 1 * q.val; omega
  rw [h0, h1]
  rfl

/-- An index of the output array is in point t's block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- The ten blocks of 10000 rows tile the 100000 rows: row r lies in the block of point r / 10000, and every point
    writes its block back. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hr : (i 0).val / 10000 < 10 := by omega
  refine ⟨⟨(i 0).val / 10000, hr⟩, flush1_2 _, ?_⟩
  rw [mem_blk]
  obtain ⟨e0, e1, e2, e3, e4⟩ := blockIndex ⟨(i 0).val / 10000, hr⟩
  have e3' : win1_2.index ⟨(i 0).val / 10000, hr⟩ (0 : Fin 2) = (i 0).val / 10000 := e3
  intro a
  match a with
  | ⟨0, _⟩ =>
    show win1_2.index ⟨(i 0).val / 10000, hr⟩ (0 : Fin 2) * 10000 ≤ (i 0).val
      ∧ (i 0).val < win1_2.index ⟨(i 0).val / 10000, hr⟩ (0 : Fin 2) * 10000 + 10000
    omega
  | ⟨1, _⟩ =>
    show win1_2.index ⟨(i 0).val / 10000, hr⟩ (1 : Fin 2) * 128 ≤ (i 1).val
      ∧ (i 1).val < win1_2.index ⟨(i 0).val / 10000, hr⟩ (1 : Fin 2) * 128 + 128
    omega

/-- After region 1 the output array is the aggregated features plus the row-broadcast bias, clamped below at zero:
    the same three host operations the reference applies. -/
theorem final (c : Dev nD) :
    (dat1 (F := Ideal) V c).arrAt 2 cfg1.N
      = maximumf
          (addf (V c main_v45)
            (broadcastInDim Cert.ReferenceIdeal.S100000x128 ![0, 1] Cert.ReferenceIdeal.Facts₀.bcast_S1x128_S100000x128_0_1
              (broadcastInDim Cert.ReferenceIdeal.S1x128 ![1] Cert.ReferenceIdeal.Facts₀.bcast_S128_S1x128_1 (V c main_arg5))))
          (broadcastInDim Cert.ReferenceIdeal.S100000x128 ![] Cert.ReferenceIdeal.Facts₀.bcast_S_S100000x128
            (constant (F := Ideal) Cert.ReferenceIdeal.S_ .f32 0x00000000#32)) := by
  -- every block written back is a block of G, and the blocks cover the array: the array ends holding G;
  -- G is the right-hand side index by index
  refine ((dat1 (F := Ideal) V c).arrAt_eq_of_cover 2 (G (V c main_v45) (V c main_arg5))
    (fun t _ => flushed_eq V c t) cover).trans ?_
  exact (funext fun i => wholeVal (V c main_v45) (V c main_arg5) i).symm

end Cert.KernelIdeal.Region1

end
-- ==== Proof.Region2.lean ====
/-
  The second linear layer's region, read as a value: it leaves in its output array the matrix product of the hidden
  features with the second weight matrix, row block by row block.
-/
import proofs.«153153_j22892175688228_1_alg».proof.Proof.Gen.KernelIdeal.Frame
import proofs.«153153_j22892175688228_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Region2

/-! ## A row block's product and the whole product, entry by entry -/

/-- The left operand's index of the block product keeps the output's row. -/
theorem lhs_block_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- Its column is the summation index. -/
theorem lhs_block_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the summation index. -/
theorem rhs_block_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- Its column is the output's column. -/
theorem rhs_block_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The same four facts for the product of the whole arrays. -/
theorem lhs_whole_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem lhs_whole_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rhs_whole_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rhs_whole_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- The body's payload at row `p`, column `q` of the block: the row of the hidden block against the column of the
    weights, summed over the 128 hidden features (the reshape to the same shape and the roundings to the narrow format
    are the identity on extended reals, and the accumulator starts at zero). -/
theorem blockDot (x : Vec Ideal S10000x128 .f32) (w : Vec Ideal S128x64 .f32) (p : Fin 10000) (q : Fin 64) :
    k2_pay1 (F := Ideal) x w (ix2 p q) = ∑ k : Fin 128, x (ix2 p k) * w (ix2 k q) := by
  unfold k2_pay1
  simp only [matmul]
  rw [shapeCast_self]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_block_0 _ _
    | ⟨1, _⟩ => exact (lhs_block_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_block_0 _ _).trans hk
    | ⟨1, _⟩ => exact rhs_block_1 _ _)
  rw [truncf_apply, truncf_apply, el, er]

/-- The host's product of the whole arrays at row `p`, column `q`: the same sum over the 128 hidden features. -/
theorem wholeDot (X : FVec Ideal Cert.ReferenceIdeal.S100000x128 .f32) (W : FVec Ideal Cert.ReferenceIdeal.S128x64 .f32) (p : Fin 100000) (q : Fin 64) :
    Host.dotGeneral (F := Ideal) (φ₁ := .f32) (φ₂ := .f32) Cert.ReferenceIdeal.dot_S100000x128_S128x64_S100000x64_1_0_0_1_n_n none X W (ix2 p q)
      = ∑ k : Fin 128, X (ix2 p k) * W (ix2 k q) := by
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 p q) ((contrEquiv1 Cert.ReferenceIdeal.dot_S100000x128_S128x64_S100000x64_1_0_0_1_n_n 128 rfl rfl).symm k) = ix2 p k := funext fun a => Fin.ext (by
    match a with
    | ⟨0, _⟩ => exact lhs_whole_0 _ _
    | ⟨1, _⟩ => exact (lhs_whole_1 _ _).trans hk)
  have er : Cert.ReferenceIdeal.dot_S100000x128_S128x64_S100000x64_1_0_0_1_n_n.rhsIdx (ix2 p q) ((contrEquiv1 Cert.ReferenceIdeal.dot_S100000x128_S128x64_S100000x64_1_0_0_1_n_n 128 rfl rfl).symm k) = ix2 k q := funext fun a => Fin.ext (by
    match a with
    | ⟨0, _⟩ => exact (rhs_whole_0 _ _).trans hk
    | ⟨1, _⟩ => exact rhs_whole_1 _ _)
  rw [el, er]

/-! ## From the row blocks to the array -/

variable (V : (c : Dev nD) → (b : Ref sig .tc) → Buf (Elt Ideal) ((c : Thread nD τ).loc b))

/-- Both offsets of an access to a whole block are zero. -/
theorem zero_offsets : (![0, 0] : Fin 2 → Nat) = fun _ => 0 := funext fun a => by fin_cases a <;> rfl

/-- The block indices over the ten grid points: at point `t` the hidden features' block and the output's block are row
    block `t`, in the only column block; the weights are one block, the whole matrix. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row block `t` of the product of the whole arrays: row `p` of the block is row
    `10000 t + p` of the hidden features, and the weights are the same matrix at every point. -/
theorem flushed_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S100000x128_S128x64_S100000x64_1_0_0_1_n_n none
        (V c main_v46 : FVec Ideal Cert.ReferenceIdeal.S100000x128 .f32) (V c main_arg6 : FVec Ideal Cert.ReferenceIdeal.S128x64 .f32)) := by
  show (cfg2.win 2).cut (grid2.coords t) ((dat2 (F := Ideal) V c).after 2 t) = _
  rw [after2_2]
  unfold out2_2
  rw [View.canon_unit_zero zero_offsets]
  simp only [View.ld_unit_zero (S := S10000x128) zero_offsets, View.ld_unit_zero (S := S128x64) zero_offsets]
  obtain ⟨e00, e01, e10, e11, e20, e21⟩ := block_indices t
  have ht : t.val < 10 := t.isLt
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
    = Host.dotGeneral (F := Ideal) (φ₁ := .f32) (φ₂ := .f32) Cert.ReferenceIdeal.dot_S100000x128_S128x64_S100000x64_1_0_0_1_n_n none
        (V c main_v46 : FVec Ideal Cert.ReferenceIdeal.S100000x128 .f32) (V c main_arg6 : FVec Ideal Cert.ReferenceIdeal.S128x64 .f32)
        (((cfg2.win 2).blk t).view.emb (ix2 p q))
  have hrow : t.val * 10000 + p.val < 100000 := by omega
  have he : ((cfg2.win 2).blk t).view.emb (ix2 p q) = ix2 (⟨t.val * 10000 + p.val, hrow⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [he, wholeDot, blockDot]
  refine Finset.sum_congr rfl fun k _ => ?_
  have h0 : iblk2 V c 0 t (ix2 p k) = (V c main_v46 : FVec Ideal Cert.ReferenceIdeal.S100000x128 .f32) (ix2 (⟨t.val * 10000 + p.val, hrow⟩ : Fin 100000) k) := by
    show (V c main_v46 : FVec Ideal Cert.ReferenceIdeal.S100000x128 .f32) (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * k.val = k.val; omega
  have h1 : iblk2 V c 1 t (ix2 k q) = (V c main_arg6 : FVec Ideal Cert.ReferenceIdeal.S128x64 .f32) (ix2 k q) := by
    show (V c main_arg6 : FVec Ideal Cert.ReferenceIdeal.S128x64 .f32) (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  rw [h0, h1]

/-- An entry of the array is in point `t`'s block exactly when each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v47).slice (win2_2.rect t)).set ↔ _
  rw [View.set_slice_whole, Rect.mem_set_unit]
  exact Iff.rfl

/-- Every entry of the output array is written back by some point: row `r` lies in row block `r / 10000`. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have hlt : (i 0).val / 10000 < grid2.N := by rw [hN]; omega
  refine ⟨⟨(i 0).val / 10000, hlt⟩, flush2_2 _, ?_⟩
  obtain ⟨-, -, -, -, e20, e21⟩ := block_indices ⟨(i 0).val / 10000, hlt⟩
  have e20' : win2_2.index ⟨(i 0).val / 10000, hlt⟩ (0 : Fin 2) = (i 0).val / 10000 := e20
  rw [mem_blk]
  intro a
  match a with
  | ⟨0, _⟩ => show win2_2.index ⟨(i 0).val / 10000, hlt⟩ (0 : Fin 2) * 10000 ≤ (i 0).val ∧ (i 0).val < win2_2.index ⟨(i 0).val / 10000, hlt⟩ (0 : Fin 2) * 10000 + 10000; omega
  | ⟨1, _⟩ => show win2_2.index ⟨(i 0).val / 10000, hlt⟩ (1 : Fin 2) * 64 ≤ (i 1).val ∧ (i 1).val < win2_2.index ⟨(i 0).val / 10000, hlt⟩ (1 : Fin 2) * 64 + 64; omega

/-- After region 2 the output array is the host's dot_general of the two input arrays as entered. -/
theorem final (c : Dev nD) :
    (dat2 (F := Ideal) V c).arrAt 2 cfg2.N
      = Host.dotGeneral (F := Ideal) (φ₁ := .f32) (φ₂ := .f32) Cert.ReferenceIdeal.dot_S100000x128_S128x64_S100000x64_1_0_0_1_n_n none
          (V c main_v46 : FVec Ideal Cert.ReferenceIdeal.S100000x128 .f32) (V c main_arg6 : FVec Ideal Cert.ReferenceIdeal.S128x64 .f32) :=
  (dat2 (F := Ideal) V c).arrAt_eq_of_cover 2 _ (fun t _ => flushed_eq V c t) cover

end Cert.KernelIdeal.Region2

end
-- ==== Proof.Score.lean ====
/-
  The edge score as a function of two 1000000 x 64 arrays and a 64-vector: for every edge e, the sum over the
  features d of (u[e, d] + b[d]) * (v[e, d] + b[d]), laid out as one column.
-/
import proofs.«153153_j22892175688228_1_alg».proof.KernelIdeal
import Idealize.ShloMosaic.Lib.ValueIdx

noncomputable section

open Idealize.ShloMosaic

namespace Cert.KernelIdeal.Score

open Cert.KernelIdeal

/-- Row `i`'s entry `k` of a 1000000 x 64 array, for a row index of the one-column output. -/
abbrev rowAt (i : S1000000x1.Idx) (k : Fin 64) : S1000000x64.Idx := fun a => match a with
  | ⟨0, _⟩ => ⟨(i 0).val, (i 0).isLt⟩
  | ⟨1, _⟩ => ⟨k.val, k.isLt⟩

/-- Feature `k` of the bias. -/
abbrev featAt (k : Fin 64) : S64.Idx := fun a => match a with
  | ⟨0, _⟩ => ⟨k.val, k.isLt⟩

/-- The edge scores: the inner product of the two biased rows. -/
def score (u v : FVec Ideal S1000000x64 .f32) (b : FVec Ideal S64 .f32) : FVec Ideal S1000000x1 .f32 :=
  fun i => ∑ k : Fin 64, (u (rowAt i k) + b (featAt k)) * (v (rowAt i k) + b (featAt k))

end Cert.KernelIdeal.Score

end
-- ==== Proof.Region3.lean ====
/-
  The edge-score region, read as a value: for every edge e it leaves the sum over the 64 features d of
  (u[e, d] + b[d]) * (v[e, d] + b[d]) in row e of its one-column output array.
-/
import proofs.«153153_j22892175688228_1_alg».proof.Proof.Gen.KernelIdeal.Frame
import proofs.«153153_j22892175688228_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import proofs.«153153_j22892175688228_1_alg».proof.Proof.Score

set_option maxRecDepth 16384

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Region3

open Cert.KernelIdeal.Score

/-- A vector of length `a` cast to one column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One block of the body: row `r` of what it stores is the inner product, over the 64 features, of the two
    biased rows `r` of its blocks. -/
theorem blockScore (u v : Vec Ideal S20000x64 .f32) (b : Vec Ideal S64 .f32) (r : Fin 20000) :
    k3_pay1 (F := Ideal) u b v b (ix2 r (0 : Fin 1))
      = ∑ k : Fin 64, (u (ix2 r k) + b (ix1 k)) * (v (ix2 r k) + b (ix1 k)) := by
  unfold k3_pay1
  refine (shapeCast_a_a1_apply _ _ r 0).trans ?_
  refine (Ideal.multiReduction_add_single _ _ _ _ _ (ix1 r)).trans ?_
  refine Finset.sum_congr rfl fun (k : Fin 64) _ => ?_
  have hl : reduces_S20000x64_S20000.lift (ix1 r) k = ix2 r k :=
    funext fun c => match c with | ⟨0, _⟩ => Fin.ext rfl | ⟨1, _⟩ => Fin.ext rfl
  rw [hl, mulf_apply, addf_apply, addf_apply, shapeCast_self, shapeCast_self, broadcastTo_1b_ab_apply,
    shapeCast_a_1a_apply]

variable (V : (c : Dev nD) → (b : Ref sig .tc) → Buf (Elt Ideal) ((c : Thread nD τ).loc b))

/-- The zero offsets of a rank-2 access, as a constant function. -/
theorem zero2 : (![0, 0] : Fin 2 → Nat) = fun _ => 0 := funext fun a => by fin_cases a <;> rfl
/-- The zero offset of a rank-1 access, as a constant function. -/
theorem zero1 : (![0] : Fin 1 → Nat) = fun _ => 0 := funext fun a => by fin_cases a <;> rfl

/-- The index maps over the 50 grid points: the two row-block windows and the output window sit at row block `t`,
    column block 0; the bias window at block 0. -/
theorem blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- What point `t` writes back is block `t` of the edge scores. -/
theorem flushedScore (c : Dev nD) (t : Fin cfg3.N) :
    (dat3 (F := Ideal) V c).flushed 3 t
      = ((cfg3.win 3).blk t).view.read (Elt Ideal) (score (V c main_v70) (V c main_v79) (V c main_arg7)) := by
  show (cfg3.win 3).cut (grid3.coords t) ((dat3 V c).after 3 t) = _
  rw [after3_3]
  unfold out3_3
  rw [View.canon_unit_zero zero2]
  simp only [View.ld_unit_zero (S := S20000x64) zero2, View.ld_unit_zero (S := S64) zero1]
  obtain ⟨e00, e01, e10, e11, e2, e30, e31⟩ := blockIndex t
  funext j
  have hj0 : (j 0).val < 20000 := (j 0).isLt
  have hj1 : (j 1).val < 1 := (j 1).isLt
  have hx : (cfg3.win 3).xinj (grid3.coords t) j = ix2 (⟨(j 0).val, hj0⟩ : Fin 20000) (0 : Fin 1) :=
    funext fun a => match a with
      | ⟨0, _⟩ => Fin.ext rfl
      | ⟨1, _⟩ => Fin.ext (show (j 1).val = 0 by omega)
  show k3_pay1 (iblk3 V c 0 t) (iblk3 V c 2 t) (iblk3 V c 1 t) (iblk3 V c 2 t) ((cfg3.win 3).xinj (grid3.coords t) j) = _
  rw [hx]
  refine (blockScore _ _ _ _).trans ?_
  show _ = score (V c main_v70) (V c main_v79) (V c main_arg7) (((cfg3.win 3).blk t).view.emb j)
  unfold score
  refine Finset.sum_congr rfl fun k _ => ?_
  -- row r of block t of either gathered array is row t * 20000 + r of the array
  have i0 : ((cfg3.win 0).blk t).view.emb (ix2 (⟨(j 0).val, hj0⟩ : Fin 20000) k)
      = rowAt (((cfg3.win 3).blk t).view.emb j) k := by
    funext a; apply Fin.ext
    match a with
    | ⟨0, _⟩ =>
      show win3_0.index t (0 : Fin 2) * 20000 + 1 * (j 0).val = win3_3.index t (0 : Fin 2) * 20000 + 1 * (j 0).val
      omega
    | ⟨1, _⟩ => show win3_0.index t (1 : Fin 2) * 64 + 1 * k.val = k.val; omega
  have i1 : ((cfg3.win 1).blk t).view.emb (ix2 (⟨(j 0).val, hj0⟩ : Fin 20000) k)
      = rowAt (((cfg3.win 3).blk t).view.emb j) k := by
    funext a; apply Fin.ext
    match a with
    | ⟨0, _⟩ =>
      show win3_1.index t (0 : Fin 2) * 20000 + 1 * (j 0).val = win3_3.index t (0 : Fin 2) * 20000 + 1 * (j 0).val
      omega
    | ⟨1, _⟩ => show win3_1.index t (1 : Fin 2) * 64 + 1 * k.val = k.val; omega
  -- the bias block is the whole bias
  have i2 : ((cfg3.win 2).blk t).view.emb (ix1 k) = featAt k := by
    funext a; apply Fin.ext
    match a with
    | ⟨0, _⟩ => show win3_2.index t (0 : Fin 1) * 64 + 1 * k.val = k.val; omega
  have h0 : iblk3 V c 0 t (ix2 (⟨(j 0).val, hj0⟩ : Fin 20000) k)
      = (V c main_v70 : FVec Ideal S1000000x64 .f32) (rowAt (((cfg3.win 3).blk t).view.emb j) k) :=
    congrArg (V c main_v70 : FVec Ideal S1000000x64 .f32) i0
  have h1 : iblk3 V c 1 t (ix2 (⟨(j 0).val, hj0⟩ : Fin 20000) k)
      = (V c main_v79 : FVec Ideal S1000000x64 .f32) (rowAt (((cfg3.win 3).blk t).view.emb j) k) :=
    congrArg (V c main_v79 : FVec Ideal S1000000x64 .f32) i1
  have h2 : iblk3 V c 2 t (ix1 k) = (V c main_arg7 : FVec Ideal S64 .f32) (featAt k) :=
    congrArg (V c main_arg7 : FVec Ideal S64 .f32) i2
  rw [h0, h1, h2]

/-- An index of the output array lies in point `t`'s block iff each coordinate lies in the block's range on its axis. -/
theorem mem_block (t : Fin cfg3.N) (i : S1000000x1.Idx) :
    i ∈ ((cfg3.win 3).blk t).view.set ↔ ∀ a : Fin 2, win3_3.index t a * S20000x1.size a ≤ (i a).val
      ∧ (i a).val < win3_3.index t a * S20000x1.size a + S20000x1.size a := by
  show i ∈ ((View.whole main_v80).slice (win3_3.rect t)).set ↔ _
  rw [View.set_slice_whole, Rect.mem_set_unit]
  exact Iff.rfl

/-- The 50 blocks of 20000 rows cover the 1000000 rows: row `e` lies in the block of point `e / 20000`. -/
theorem rows_covered (i : S1000000x1.Idx) :
    ∃ t : Fin cfg3.N, (cfg3.win 3).flush t = true ∧ i ∈ ((cfg3.win 3).blk t).view.set := by
  have hi0 : (i 0).val < 1000000 := (i 0).isLt
  have hi1 : (i 1).val < 1 := (i 1).isLt
  have hN : cfg3.N = 50 := N_3
  obtain ⟨t, ht⟩ : ∃ t : Fin cfg3.N, t.val = (i 0).val / 20000 := ⟨⟨(i 0).val / 20000, by rw [hN]; omega⟩, rfl⟩
  obtain ⟨-, -, -, -, -, e30, e31⟩ := blockIndex t
  refine ⟨t, flush3_3 t, ?_⟩
  rw [mem_block]
  intro a
  match a with
  | ⟨0, _⟩ =>
    show win3_3.index t (0 : Fin 2) * 20000 ≤ (i 0).val ∧ (i 0).val < win3_3.index t (0 : Fin 2) * 20000 + 20000
    omega
  | ⟨1, _⟩ =>
    show win3_3.index t (1 : Fin 2) * 1 ≤ (i 1).val ∧ (i 1).val < win3_3.index t (1 : Fin 2) * 1 + 1
    omega

/-- After region 3 the output array holds the edge scores of the two gathered arrays and the bias as entered. -/
theorem final (c : Dev nD) :
    (dat3 (F := Ideal) V c).arrAt 3 cfg3.N = score (V c main_v70) (V c main_v79) (V c main_arg7) :=
  (dat3 (F := Ideal) V c).arrAt_eq_of_cover 3 (score (V c main_v70) (V c main_v79) (V c main_arg7))
    (fun t _ => flushedScore V c t) rows_covered

end Cert.KernelIdeal.Region3

end
-- ==== Proof.Decode.lean ====
/-
  The decode tail as pure mathematics: gathering rows and then adding the per-feature bias is the same as adding the
  bias to every row first and gathering afterwards, so the kernel's edge scores of the gathered rows are the
  reference's row sums of the product of the two gathers of the biased array.
-/
import proofs.«153153_j22892175688228_1_alg».proof.Proof.Score
import proofs.«153153_j22892175688228_1_alg».proof.Proof.Gen.ReferenceIdeal
import proofs.«153153_j22892175688228_1_alg».proof.Proof.Gen.KernelIdeal
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.ValueIdx

namespace Cert.KernelIdeal.Decode

open Cert.KernelIdeal.Score

/-- The reference's record of the row gather: rows of a 100000 x 64 array picked by 1000000 start indices. -/
abbrev rowGather : GatherDims Cert.ReferenceIdeal.S100000x64 Cert.ReferenceIdeal.S1000000x1 Cert.ReferenceIdeal.S1000000x64 :=
  Cert.ReferenceIdeal.gather_S100000x64_S1000000x1_S1000000x64_1_0_n_n_0_1_164

/-- Axis 1 is an offset axis of the row gather: the start index contributes nothing there, there is no batching
    axis, and the offset is the result's own column. So the element read has the result's column, whatever the
    start indices are. -/
theorem gathered_col (idx : IVec Cert.ReferenceIdeal.S1000000x1 32) (y : Cert.ReferenceIdeal.S1000000x64.Idx) :
    (rowGather.operandIdx y idx 1).val = (y 1).val := by
  show rowGather.start y idx 1 + rowGather.batchCoord y 1 + rowGather.offCoord y 1 = _
  rw [GatherDims.batchCoord_eq_zero rowGather y 1 List.not_mem_nil]
  have hs : rowGather.start y idx 1 = 0 := by
    unfold GatherDims.start
    exact dif_neg (by decide)
  have ho : rowGather.offCoord y 1 = (y 1).val := by
    unfold GatherDims.offCoord
    rw [dif_pos (by decide)]
    rfl
  rw [hs, ho, Nat.add_zero, Nat.zero_add]

/-- The kernel's program and the reference state the same gather. -/
theorem rowGather_kernel : Cert.KernelIdeal.gather_S100000x64_S1000000x1_S1000000x64_1_0_n_n_0_1_164 = rowGather := rfl

/-- The bias copied into every row, read at an index of column `k`: feature `k` of the bias. -/
theorem bias_rows_apply (b : FVec Ideal Cert.ReferenceIdeal.S64 .f32) (p : Cert.ReferenceIdeal.S100000x64.Idx) (k : Fin 64)
    (hk : (p 1).val = k.val) :
    broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b) p = b (featAt k) := by
  refine (broadcastInDim_apply _ Cert.ReferenceIdeal.Facts₀.bcast_S1x64_S100000x64_0_1 _ p
    (fun a => match a with | ⟨0, _⟩ => ⟨0, Nat.one_pos⟩ | ⟨1, _⟩ => ⟨k.val, k.isLt⟩) (fun a => match a with
      | ⟨0, _⟩ => by show 0 = if (1 : Nat) = 1 then 0 else (p 0).val; rw [if_pos rfl]
      | ⟨1, _⟩ => by show k.val = if (64 : Nat) = 1 then 0 else (p 1).val; rw [if_neg (by decide)]; exact hk.symm)).trans ?_
  exact broadcastInDim_apply _ Cert.ReferenceIdeal.Facts₀.bcast_S64_S1x64_1 b _ (featAt k) (fun a => match a with
    | ⟨0, _⟩ => by show k.val = if (64 : Nat) = 1 then 0 else k.val; rw [if_neg (by decide)])

/-- Gathering rows of the biased array is gathering rows and adding the bias afterwards: the row picked depends on
    the start indices only, and the column is the result's. -/
theorem biased_gather (A : FVec Ideal Cert.ReferenceIdeal.S100000x64 .f32) (b : FVec Ideal Cert.ReferenceIdeal.S64 .f32)
    (idx : IVec Cert.ReferenceIdeal.S1000000x1 32) (y : Cert.ReferenceIdeal.S1000000x64.Idx) (k : Fin 64) (hk : (y 1).val = k.val) :
    Host.gather rowGather
        (addf A (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b))) idx y
      = Host.gather rowGather A idx y + b (featAt k) := by
  unfold Host.gather
  exact congrArg (A (rowGather.operandIdx y idx) + ·)
    (bias_rows_apply b (rowGather.operandIdx y idx) k ((gathered_col idx y).trans hk))

/-- Row `e` of the one-column layout. -/
abbrev colIdx (e : Cert.KernelIdeal.S1000000.Idx) : Cert.KernelIdeal.S1000000x1.Idx := fun a => match a with
  | ⟨0, _⟩ => ⟨(e 0).val, (e 0).isLt⟩
  | ⟨1, _⟩ => ⟨0, Nat.one_pos⟩

/-- The one-column scores of the gathered rows, read as a flat vector, are the reference's last four operations
    (bias add, the two gathers, product, row sum from zero) of the same aggregated array and start indices. -/
theorem tail_eq (A : FVec Ideal Cert.ReferenceIdeal.S100000x64 .f32) (I0 I1 : IVec Cert.ReferenceIdeal.S1000000x1 32)
    (b : FVec Ideal Cert.ReferenceIdeal.S64 .f32) :
    shapeCast Cert.KernelIdeal.S1000000
        (score
          (Host.gather Cert.KernelIdeal.gather_S100000x64_S1000000x1_S1000000x64_1_0_n_n_0_1_164 A I0)
          (Host.gather Cert.KernelIdeal.gather_S100000x64_S1000000x1_S1000000x64_1_0_n_n_0_1_164 A I1) b)
        Cert.KernelIdeal.Facts₀.shapeCasts_S1000000x1_S1000000
      = Host.reduceAdd
          (mulf
            (Host.gather Cert.ReferenceIdeal.gather_S100000x64_S1000000x1_S1000000x64_1_0_n_n_0_1_164
              (addf A (broadcastInDim Cert.ReferenceIdeal.S100000x64 ![0, 1] Cert.ReferenceIdeal.Facts₀.bcast_S1x64_S100000x64_0_1
                (broadcastInDim Cert.ReferenceIdeal.S1x64 ![1] Cert.ReferenceIdeal.Facts₀.bcast_S64_S1x64_1 b))) I0)
            (Host.gather Cert.ReferenceIdeal.gather_S100000x64_S1000000x1_S1000000x64_1_0_n_n_0_1_164
              (addf A (broadcastInDim Cert.ReferenceIdeal.S100000x64 ![0, 1] Cert.ReferenceIdeal.Facts₀.bcast_S1x64_S100000x64_0_1
                (broadcastInDim Cert.ReferenceIdeal.S1x64 ![1] Cert.ReferenceIdeal.Facts₀.bcast_S64_S1x64_1 b))) I1))
          (constant (F := Ideal) Cert.ReferenceIdeal.S_ .f32 0x00000000#32)
          Cert.ReferenceIdeal.Facts₀.reducesTo_S1000000x64_S1000000_d1 Cert.ReferenceIdeal.Facts₀.h_S_ := by
  have hred : Cert.ReferenceIdeal.S1000000x64.Reduces [1] Cert.ReferenceIdeal.S1000000 := by decide
  funext e
  -- the left side at the flat index `e`: the score of row `e`
  refine (shapeCast_apply _ Cert.KernelIdeal.Facts₀.shapeCasts_S1000000x1_S1000000 e
    (colIdx e)
    (by rewrite [Shape.rowMajor_val_two, Shape.rowMajor_val_one]; show (e 0).val * 1 + 0 = (e 0).val; omega)).trans ?_
  rw [rowGather_kernel]
  unfold score
  -- the right side at `e`: zero plus the sum over the 64 features of the product of the two biased gathers
  generalize hB : broadcastInDim Cert.ReferenceIdeal.S100000x64 ![0, 1] Cert.ReferenceIdeal.Facts₀.bcast_S1x64_S100000x64_0_1
    (broadcastInDim Cert.ReferenceIdeal.S1x64 ![1] Cert.ReferenceIdeal.Facts₀.bcast_S64_S1x64_1 b) = B
  simp only [Host.reduceAdd, Ideal.hostReduceAdd_def]
  rw [Ideal.hostReduceAdd_single Cert.ReferenceIdeal.Facts₀.reducesTo_S1000000x64_S1000000_d1 hred]
  subst hB
  refine Eq.trans ?_ (congrArg (· + _) (show (0 : EReal) = constant (F := Ideal) Cert.ReferenceIdeal.S_ .f32 0x00000000#32
      (Shape.Idx.first Cert.ReferenceIdeal.Facts₀.h_S_) from Ideal.ofBits_zero_f32.symm))
  rw [zero_add]
  refine Finset.sum_congr rfl fun k _ => ?_
  -- the index the row sum reads at feature `k` is entry `k` of row `e`
  have hidx : hred.lift e k = rowAt (colIdx e) k :=
    funext fun a => Fin.ext (by match a with | ⟨0, _⟩ => rfl | ⟨1, _⟩ => rfl)
  rw [mulf_apply, hidx, biased_gather A b I0 _ k rfl, biased_gather A b I1 _ k rfl]

end Cert.KernelIdeal.Decode

end
-- ==== Proof.Thread.lean ====
/-
  The kernel program's run read back, boundary by boundary. Between its four regions the program applies the same
  host operations as the reference (the degree normalisation, the two gather-scale-scatter aggregations, the gathers
  of the decode), so every buffer a later step reads is, at each boundary, one of the reference's own stages of the
  argument arrays: the normalised edge weights and the two index vectors after the preamble; x·W1 after region 0; the
  first aggregation after the next stretch; max(agg + b1, 0) after region 1; its product with W2 after region 2; the
  second aggregation and its two row gathers after the last stretch; the edge scores after region 3, which the decode
  lemma turns into the reference's result. The four regions' values and the decode lemma enter as hypotheses.
-/
import proofs.«153153_j22892175688228_1_alg».proof.Proof.Gen.KernelIdeal.Frame
import proofs.«153153_j22892175688228_1_alg».proof.Proof.RefRead
import proofs.«153153_j22892175688228_1_alg».proof.Proof.Score
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat Cfg Window)
open Cert.KernelIdeal Cert.KernelIdeal.Gen
open Cert.ReferenceIdeal.ReadP

namespace Cert.KernelIdeal.Thread

/-! ## The host stretches, over any contents they start from -/

section Stretches

variable {F : FTy → Type} [FloatOps F]

/-- Every operation of a stretch writes one of the listed references. -/
macro "writes_listed" : tactic =>
  `(tactic| (simp only [List.Forall]; (repeat' apply And.intro); all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))))

/-- What the first stretch of the preamble writes: the two index vectors, the degrees and their inverse square roots. -/
abbrev pre0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem pre0_writes : (hostOps0 : List (HloOp τ sig (Elt F))).Forall fun op => op.writes ⊆ (pre0_W.map (Proc.devRef (τ := τ) .tc)).toFinset := by
  writes_listed
theorem pre0_keeps (W : Valuation τ sig (Elt F)) (r : Ref sig .tc) (h : r ∉ pre0_W) :
    StableHlo.after hostOps0 W (Proc.devRef .tc r) = W (Proc.devRef .tc r) :=
  StableHlo.after_of_writes_sub hostOps0 W pre0_writes h

/-- What the guarded select writes. -/
abbrev pre1_W : List (Ref sig .tc) := [main_call0_v0, main_call0_v1, main_v16]
theorem pre1_writes : (hostOps0_1 : List (HloOp τ sig (Elt F))).Forall fun op => op.writes ⊆ (pre1_W.map (Proc.devRef (τ := τ) .tc)).toFinset := by
  writes_listed
theorem pre1_keeps (W : Valuation τ sig (Elt F)) (r : Ref sig .tc) (h : r ∉ pre1_W) :
    StableHlo.after hostOps0_1 W (Proc.devRef .tc r) = W (Proc.devRef .tc r) :=
  StableHlo.after_of_writes_sub hostOps0_1 W pre1_writes h

/-- What the last stretch of the preamble writes: the normalised edge weights and what leads to them. -/
abbrev pre2_W : List (Ref sig .tc) := [main_c, main_v17, main_v18, main_c_4, main_v19, main_v20, main_v21, main_v22, main_v23, main_c_5, main_v24, main_v25, main_c_6, main_v26, main_v27, main_v28, main_v29, main_v30, main_v31]
theorem pre2_writes : (hostOps0_2 : List (HloOp τ sig (Elt F))).Forall fun op => op.writes ⊆ (pre2_W.map (Proc.devRef (τ := τ) .tc)).toFinset := by
  writes_listed
theorem pre2_keeps (W : Valuation τ sig (Elt F)) (r : Ref sig .tc) (h : r ∉ pre2_W) :
    StableHlo.after hostOps0_2 W (Proc.devRef .tc r) = W (Proc.devRef .tc r) :=
  StableHlo.after_of_writes_sub hostOps0_2 W pre2_writes h

/-- What the first aggregation writes. -/
abbrev agg1_W : List (Ref sig .tc) := [main_c_7, main_v33, main_v34, main_c_8, main_v35, main_v36, main_v37, main_v38, main_v39, main_v40, main_v41, main_v42, main_cst_9, main_v43, main_v44, main_v45]
theorem agg1_writes : (hostOps1 : List (HloOp τ sig (Elt F))).Forall fun op => op.writes ⊆ (agg1_W.map (Proc.devRef (τ := τ) .tc)).toFinset := by
  writes_listed
theorem agg1_keeps (W : Valuation τ sig (Elt F)) (r : Ref sig .tc) (h : r ∉ agg1_W) :
    StableHlo.after hostOps1 W (Proc.devRef .tc r) = W (Proc.devRef .tc r) :=
  StableHlo.after_of_writes_sub hostOps1 W agg1_writes h

/-- What the second aggregation and the decode's gathers write. -/
abbrev agg2_W : List (Ref sig .tc) := [main_c_10, main_v48, main_v49, main_c_11, main_v50, main_v51, main_v52, main_v53, main_v54, main_v55, main_v56, main_v57, main_cst_12, main_v58, main_v59, main_v60, main_v61, main_v62, main_v63, main_c_13, main_v64, main_v65, main_c_14, main_v66, main_v67, main_v68, main_v69, main_v70, main_v71, main_v72, main_c_15, main_v73, main_v74, main_c_16, main_v75, main_v76, main_v77, main_v78, main_v79]
theorem agg2_writes : (hostOps3 : List (HloOp τ sig (Elt F))).Forall fun op => op.writes ⊆ (agg2_W.map (Proc.devRef (τ := τ) .tc)).toFinset := by
  writes_listed
theorem agg2_keeps (W : Valuation τ sig (Elt F)) (r : Ref sig .tc) (h : r ∉ agg2_W) :
    StableHlo.after hostOps3 W (Proc.devRef .tc r) = W (Proc.devRef .tc r) :=
  StableHlo.after_of_writes_sub hostOps3 W agg2_writes h

/-! ### What each stretch computes: the reference's stages of whatever it starts from -/

set_option maxHeartbeats 4000000 in
/-- The source index vector: the edge list's first row followed by the self loops. -/
theorem pre0_v3 (W : Valuation τ sig (Elt F)) :
    StableHlo.after hostOps0 W (Proc.devRef .tc main_v3) = val_main_v3 (F := F) (W (Proc.devRef .tc main_arg1)) := by
  dsimp only [hostOps0]; after_results; rfl

set_option maxHeartbeats 4000000 in
/-- The target index vector: the edge list's second row followed by the self loops. -/
theorem pre0_v6 (W : Valuation τ sig (Elt F)) :
    StableHlo.after hostOps0 W (Proc.devRef .tc main_v6) = val_main_v6 (F := F) (W (Proc.devRef .tc main_arg1)) := by
  dsimp only [hostOps0]; after_results; rfl

set_option maxHeartbeats 4000000 in
/-- Which nodes have a positive degree. -/
theorem pre0_v12 (W : Valuation τ sig (Elt F)) :
    StableHlo.after hostOps0 W (Proc.devRef .tc main_v12) = val_main_v12 (F := F) (W (Proc.devRef .tc main_arg1)) := by
  dsimp only [hostOps0]; after_results; rfl

set_option maxHeartbeats 4000000 in
/-- The inverse square root of the degree clamped below. -/
theorem pre0_v15 (W : Valuation τ sig (Elt F)) :
    StableHlo.after hostOps0 W (Proc.devRef .tc main_v15) = val_main_v15 (F := F) (W (Proc.devRef .tc main_arg1)) := by
  dsimp only [hostOps0]; after_results; rfl

/-- The zero the select falls back to. -/
theorem pre0_cst_3 (W : Valuation τ sig (Elt F)) :
    StableHlo.after hostOps0 W (Proc.devRef .tc main_cst_3) = val_main_cst_3 (F := F) := by
  dsimp only [hostOps0]; after_results; rfl

/-- The guarded inverse square root of the degree. -/
theorem pre1_v16 (W : Valuation τ sig (Elt F)) (x1 : (⟨Cert.ReferenceIdeal.S2x1600000, .i32⟩ : BufTy).Contents (Elt F))
    (h12 : W (Proc.devRef .tc main_v12) = val_main_v12 (F := F) x1) (h15 : W (Proc.devRef .tc main_v15) = val_main_v15 (F := F) x1)
    (hc : W (Proc.devRef .tc main_cst_3) = val_main_cst_3 (F := F)) :
    StableHlo.after hostOps0_1 W (Proc.devRef .tc main_v16) = val_main_v16 (F := F) x1 := by
  dsimp only [hostOps0_1]; after_results; rw [h12, h15, hc]; rfl

set_option maxHeartbeats 4000000 in
/-- The normalised edge weights: the product of the two endpoints' guarded inverse square roots. -/
theorem pre2_v31 (W : Valuation τ sig (Elt F)) (x1 : (⟨Cert.ReferenceIdeal.S2x1600000, .i32⟩ : BufTy).Contents (Elt F))
    (h3 : W (Proc.devRef .tc main_v3) = val_main_v3 (F := F) x1) (h6 : W (Proc.devRef .tc main_v6) = val_main_v6 (F := F) x1)
    (h16 : W (Proc.devRef .tc main_v16) = val_main_v16 (F := F) x1) :
    StableHlo.after hostOps0_2 W (Proc.devRef .tc main_v31) = val_main_v31 (F := F) x1 := by
  dsimp only [hostOps0_2]; after_results; rw [h3, h6, h16]; rfl

set_option maxHeartbeats 4000000 in
/-- The first aggregation: gather the transformed rows along the sources, scale by the edge weights, add along the targets. -/
theorem agg1_v45 (W : Valuation τ sig (Elt F)) (x0 : (⟨Cert.ReferenceIdeal.S100000x256, .f32⟩ : BufTy).Contents (Elt F))
    (x1 : (⟨Cert.ReferenceIdeal.S2x1600000, .i32⟩ : BufTy).Contents (Elt F)) (x4 : (⟨Cert.ReferenceIdeal.S256x128, .f32⟩ : BufTy).Contents (Elt F))
    (h32 : W (Proc.devRef .tc main_v32) = val_main_v32 (F := F) x0 x4)
    (h3 : W (Proc.devRef .tc main_v3) = val_main_v3 (F := F) x1) (h6 : W (Proc.devRef .tc main_v6) = val_main_v6 (F := F) x1)
    (h31 : W (Proc.devRef .tc main_v31) = val_main_v31 (F := F) x1) :
    StableHlo.after hostOps1 W (Proc.devRef .tc main_v45) = val_main_v45 (F := F) x0 x1 x4 := by
  dsimp only [hostOps1]; after_results; rw [h32, h3, h6, h31]; rfl

set_option maxHeartbeats 8000000 in
/-- The second aggregation, gathered along the first endpoints of the pairs to score. -/
theorem agg2_v70 (W : Valuation τ sig (Elt F)) (x0 : (⟨Cert.ReferenceIdeal.S100000x256, .f32⟩ : BufTy).Contents (Elt F))
    (x1 : (⟨Cert.ReferenceIdeal.S2x1600000, .i32⟩ : BufTy).Contents (Elt F)) (x2 x3 : (⟨Cert.ReferenceIdeal.S2x500000, .i32⟩ : BufTy).Contents (Elt F))
    (x4 : (⟨Cert.ReferenceIdeal.S256x128, .f32⟩ : BufTy).Contents (Elt F)) (x5 : (⟨Cert.ReferenceIdeal.S128, .f32⟩ : BufTy).Contents (Elt F))
    (x6 : (⟨Cert.ReferenceIdeal.S128x64, .f32⟩ : BufTy).Contents (Elt F))
    (h47 : W (Proc.devRef .tc main_v47) = val_main_v50 (F := F) x0 x1 x4 x5 x6)
    (h3 : W (Proc.devRef .tc main_v3) = val_main_v3 (F := F) x1) (h6 : W (Proc.devRef .tc main_v6) = val_main_v6 (F := F) x1)
    (h31 : W (Proc.devRef .tc main_v31) = val_main_v31 (F := F) x1)
    (ha2 : W (Proc.devRef .tc main_arg2) = x2) (ha3 : W (Proc.devRef .tc main_arg3) = x3) :
    StableHlo.after hostOps3 W (Proc.devRef .tc main_v70)
      = Host.gather Cert.ReferenceIdeal.gather_S100000x64_S1000000x1_S1000000x64_1_0_n_n_0_1_164 (val_main_v63 (F := F) x0 x1 x4 x5 x6) (val_main_v75 (F := F) x2 x3) := by
  dsimp only [hostOps3]; after_results; rw [h47, h3, h6, h31, ha2, ha3]; rfl

set_option maxHeartbeats 8000000 in
/-- The second aggregation, gathered along the second endpoints. -/
theorem agg2_v79 (W : Valuation τ sig (Elt F)) (x0 : (⟨Cert.ReferenceIdeal.S100000x256, .f32⟩ : BufTy).Contents (Elt F))
    (x1 : (⟨Cert.ReferenceIdeal.S2x1600000, .i32⟩ : BufTy).Contents (Elt F)) (x2 x3 : (⟨Cert.ReferenceIdeal.S2x500000, .i32⟩ : BufTy).Contents (Elt F))
    (x4 : (⟨Cert.ReferenceIdeal.S256x128, .f32⟩ : BufTy).Contents (Elt F)) (x5 : (⟨Cert.ReferenceIdeal.S128, .f32⟩ : BufTy).Contents (Elt F))
    (x6 : (⟨Cert.ReferenceIdeal.S128x64, .f32⟩ : BufTy).Contents (Elt F))
    (h47 : W (Proc.devRef .tc main_v47) = val_main_v50 (F := F) x0 x1 x4 x5 x6)
    (h3 : W (Proc.devRef .tc main_v3) = val_main_v3 (F := F) x1) (h6 : W (Proc.devRef .tc main_v6) = val_main_v6 (F := F) x1)
    (h31 : W (Proc.devRef .tc main_v31) = val_main_v31 (F := F) x1)
    (ha2 : W (Proc.devRef .tc main_arg2) = x2) (ha3 : W (Proc.devRef .tc main_arg3) = x3) :
    StableHlo.after hostOps3 W (Proc.devRef .tc main_v79)
      = Host.gather Cert.ReferenceIdeal.gather_S100000x64_S1000000x1_S1000000x64_1_0_n_n_0_1_164 (val_main_v63 (F := F) x0 x1 x4 x5 x6) (val_main_v84 (F := F) x2 x3) := by
  dsimp only [hostOps3]; after_results; rw [h47, h3, h6, h31, ha2, ha3]; rfl

/-- The last operation lays the one-column scores out flat. -/
theorem fin_v81 (W : Valuation τ sig (Elt F)) (y : (⟨S1000000x1, .f32⟩ : BufTy).Contents (Elt F))
    (h80 : W (Proc.devRef .tc main_v80) = y) :
    StableHlo.after hostOps4 W (Proc.devRef .tc main_v81) = shapeCast S1000000 y Facts₀.shapeCasts_S1000000x1_S1000000 := by
  dsimp only [hostOps4]; after_results; rw [h80]; rfl

end Stretches

/-! ## The run at the ideal instance -/

section Run

open Cert.KernelIdeal.Score

variable (m : (ℓ : Loc nD τ sig) → Buf (Elt Ideal) ℓ) (ρ : Dev nD → PrngReg)

/-- Region 0 leaves the product of its two input arrays as entered. -/
abbrev Fact0 : Prop := ∀ (V : (c : Dev nD) → (b : Ref sig .tc) → Buf (Elt Ideal) ((c : Thread nD τ).loc b)) (c : Dev nD),
    (dat0 (F := Ideal) V c).arrAt 2 cfg0.N
      = Host.dotGeneral (F := Ideal) (φ₁ := .f32) (φ₂ := .f32) Cert.ReferenceIdeal.dot_S100000x256_S256x128_S100000x128_1_0_0_1_n_n none (V c main_arg0) (V c main_arg4)
/-- Region 1 leaves max(a + b, 0), the bias along the rows. -/
abbrev Fact1 : Prop := ∀ (V : (c : Dev nD) → (b : Ref sig .tc) → Buf (Elt Ideal) ((c : Thread nD τ).loc b)) (c : Dev nD),
    (dat1 (F := Ideal) V c).arrAt 2 cfg1.N
      = maximumf
          (addf (V c main_v45)
            (broadcastInDim Cert.ReferenceIdeal.S100000x128 ![0, 1] Cert.ReferenceIdeal.Facts₀.bcast_S1x128_S100000x128_0_1
              (broadcastInDim Cert.ReferenceIdeal.S1x128 ![1] Cert.ReferenceIdeal.Facts₀.bcast_S128_S1x128_1 (V c main_arg5))))
          (broadcastInDim Cert.ReferenceIdeal.S100000x128 ![] Cert.ReferenceIdeal.Facts₀.bcast_S_S100000x128
            (constant (F := Ideal) Cert.ReferenceIdeal.S_ .f32 0x00000000#32))
/-- Region 2 leaves the product of its two input arrays as entered. -/
abbrev Fact2 : Prop := ∀ (V : (c : Dev nD) → (b : Ref sig .tc) → Buf (Elt Ideal) ((c : Thread nD τ).loc b)) (c : Dev nD),
    (dat2 (F := Ideal) V c).arrAt 2 cfg2.N
      = Host.dotGeneral (F := Ideal) (φ₁ := .f32) (φ₂ := .f32) Cert.ReferenceIdeal.dot_S100000x128_S128x64_S100000x64_1_0_0_1_n_n none (V c main_v46) (V c main_arg6)
/-- Region 3 leaves the edge scores of its three input arrays as entered. -/
abbrev Fact3 : Prop := ∀ (V : (c : Dev nD) → (b : Ref sig .tc) → Buf (Elt Ideal) ((c : Thread nD τ).loc b)) (c : Dev nD),
    (dat3 (F := Ideal) V c).arrAt 3 cfg3.N = score (V c main_v70) (V c main_v79) (V c main_arg7)
/-- The decode lemma: the flat scores of the gathered rows are the reference's last operations. -/
abbrev FactD : Prop := ∀ (A : FVec Ideal Cert.ReferenceIdeal.S100000x64 .f32) (I0 I1 : IVec Cert.ReferenceIdeal.S1000000x1 32) (b : FVec Ideal Cert.ReferenceIdeal.S64 .f32),
    shapeCast Cert.KernelIdeal.S1000000
        (score
          (Host.gather Cert.KernelIdeal.gather_S100000x64_S1000000x1_S1000000x64_1_0_n_n_0_1_164 A I0)
          (Host.gather Cert.KernelIdeal.gather_S100000x64_S1000000x1_S1000000x64_1_0_n_n_0_1_164 A I1) b)
        Cert.KernelIdeal.Facts₀.shapeCasts_S1000000x1_S1000000
      = Host.reduceAdd
          (mulf
            (Host.gather Cert.ReferenceIdeal.gather_S100000x64_S1000000x1_S1000000x64_1_0_n_n_0_1_164
              (addf A (broadcastInDim Cert.ReferenceIdeal.S100000x64 ![0, 1] Cert.ReferenceIdeal.Facts₀.bcast_S1x64_S100000x64_0_1
                (broadcastInDim Cert.ReferenceIdeal.S1x64 ![1] Cert.ReferenceIdeal.Facts₀.bcast_S64_S1x64_1 b))) I0)
            (Host.gather Cert.ReferenceIdeal.gather_S100000x64_S1000000x1_S1000000x64_1_0_n_n_0_1_164
              (addf A (broadcastInDim Cert.ReferenceIdeal.S100000x64 ![0, 1] Cert.ReferenceIdeal.Facts₀.bcast_S1x64_S100000x64_0_1
                (broadcastInDim Cert.ReferenceIdeal.S1x64 ![1] Cert.ReferenceIdeal.Facts₀.bcast_S64_S1x64_1 b))) I1))
          (constant (F := Ideal) Cert.ReferenceIdeal.S_ .f32 0x00000000#32)
          Cert.ReferenceIdeal.Facts₀.reducesTo_S1000000x64_S1000000_d1 Cert.ReferenceIdeal.Facts₀.h_S_

/-- The launch contents of argument `k` on core `c`. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-! ### The preamble -/

/-- A buffer the preamble does not write holds its launch contents when region 0 is entered. -/
theorem W3_launch (c : Dev nD) (r : Ref sig .tc) (h0 : r ∉ pre0_W) (h1 : r ∉ pre1_W) (h2 : r ∉ pre2_W) :
    W3 m ρ c (Proc.devRef .tc r) = m ((c : Thread nD τ).loc r) :=
  (pre2_keeps (W2 m ρ c) r h2).trans ((pre1_keeps (W1 m ρ c) r h1).trans (pre0_keeps (W0 m ρ c) r h0))

theorem W1_v3 (c : Dev nD) : W1 m ρ c (Proc.devRef .tc main_v3) = val_main_v3 (F := Ideal) (a1 m c) := pre0_v3 (W0 m ρ c)
theorem W1_v6 (c : Dev nD) : W1 m ρ c (Proc.devRef .tc main_v6) = val_main_v6 (F := Ideal) (a1 m c) := pre0_v6 (W0 m ρ c)
theorem W1_v12 (c : Dev nD) : W1 m ρ c (Proc.devRef .tc main_v12) = val_main_v12 (F := Ideal) (a1 m c) := pre0_v12 (W0 m ρ c)
theorem W1_v15 (c : Dev nD) : W1 m ρ c (Proc.devRef .tc main_v15) = val_main_v15 (F := Ideal) (a1 m c) := pre0_v15 (W0 m ρ c)
theorem W1_cst_3 (c : Dev nD) : W1 m ρ c (Proc.devRef .tc main_cst_3) = val_main_cst_3 (F := Ideal) := pre0_cst_3 (W0 m ρ c)

theorem W2_v3 (c : Dev nD) : W2 m ρ c (Proc.devRef .tc main_v3) = val_main_v3 (F := Ideal) (a1 m c) :=
  (pre1_keeps (W1 m ρ c) main_v3 (by decide)).trans (W1_v3 m ρ c)
theorem W2_v6 (c : Dev nD) : W2 m ρ c (Proc.devRef .tc main_v6) = val_main_v6 (F := Ideal) (a1 m c) :=
  (pre1_keeps (W1 m ρ c) main_v6 (by decide)).trans (W1_v6 m ρ c)
theorem W2_v16 (c : Dev nD) : W2 m ρ c (Proc.devRef .tc main_v16) = val_main_v16 (F := Ideal) (a1 m c) :=
  pre1_v16 (W1 m ρ c) (a1 m c) (W1_v12 m ρ c) (W1_v15 m ρ c) (W1_cst_3 m ρ c)

theorem W3_v3 (c : Dev nD) : W3 m ρ c (Proc.devRef .tc main_v3) = val_main_v3 (F := Ideal) (a1 m c) :=
  (pre2_keeps (W2 m ρ c) main_v3 (by decide)).trans (W2_v3 m ρ c)
theorem W3_v6 (c : Dev nD) : W3 m ρ c (Proc.devRef .tc main_v6) = val_main_v6 (F := Ideal) (a1 m c) :=
  (pre2_keeps (W2 m ρ c) main_v6 (by decide)).trans (W2_v6 m ρ c)
theorem W3_v31 (c : Dev nD) : W3 m ρ c (Proc.devRef .tc main_v31) = val_main_v31 (F := Ideal) (a1 m c) :=
  pre2_v31 (W2 m ρ c) (a1 m c) (W2_v3 m ρ c) (W2_v6 m ρ c) (W2_v16 m ρ c)

/-! ### Region 0 and the first aggregation -/

theorem W4_v32 (h0 : Fact0) (c : Dev nD) :
    W4 m ρ c (Proc.devRef .tc main_v32) = val_main_v32 (F := Ideal) (a0 m c) (a4 m c) := by
  refine (W4_arr m ρ c 2).trans ((h0 (V3 m ρ) c).trans ?_)
  show Host.dotGeneral (F := Ideal) (φ₁ := .f32) (φ₂ := .f32) Cert.ReferenceIdeal.dot_S100000x256_S256x128_S100000x128_1_0_0_1_n_n none
      (W3 m ρ c (Proc.devRef .tc main_arg0)) (W3 m ρ c (Proc.devRef .tc main_arg4)) = _
  rw [W3_launch m ρ c main_arg0 (by decide) (by decide) (by decide), W3_launch m ρ c main_arg4 (by decide) (by decide) (by decide)]
  rfl

/-- A buffer that is none of region 0's arrays and that the preamble does not write holds its launch contents at region 0's exit. -/
theorem W4_launch (c : Dev nD) (r : Ref sig .tc) (hr : ∀ w, Pipeline.arrRef spec0 w ≠ r) (h0 : r ∉ pre0_W) (h1 : r ∉ pre1_W) (h2 : r ∉ pre2_W) :
    W4 m ρ c (Proc.devRef .tc r) = m ((c : Thread nD τ).loc r) :=
  (W4_of_ne m ρ c r hr).trans (W3_launch m ρ c r h0 h1 h2)

theorem W4_v3 (c : Dev nD) : W4 m ρ c (Proc.devRef .tc main_v3) = val_main_v3 (F := Ideal) (a1 m c) :=
  (W4_of_ne m ρ c main_v3 (by decide)).trans (W3_v3 m ρ c)
theorem W4_v6 (c : Dev nD) : W4 m ρ c (Proc.devRef .tc main_v6) = val_main_v6 (F := Ideal) (a1 m c) :=
  (W4_of_ne m ρ c main_v6 (by decide)).trans (W3_v6 m ρ c)
theorem W4_v31 (c : Dev nD) : W4 m ρ c (Proc.devRef .tc main_v31) = val_main_v31 (F := Ideal) (a1 m c) :=
  (W4_of_ne m ρ c main_v31 (by decide)).trans (W3_v31 m ρ c)

theorem W5_v45 (h0 : Fact0) (c : Dev nD) :
    W5 m ρ c (Proc.devRef .tc main_v45) = val_main_v45 (F := Ideal) (a0 m c) (a1 m c) (a4 m c) :=
  agg1_v45 (W4 m ρ c) (a0 m c) (a1 m c) (a4 m c) (W4_v32 m ρ h0 c) (W4_v3 m ρ c) (W4_v6 m ρ c) (W4_v31 m ρ c)

/-- A buffer neither the preamble nor the first aggregation writes, and none of region 0's arrays, holds its launch contents when region 1 is entered. -/
theorem W5_launch (c : Dev nD) (r : Ref sig .tc) (hr : ∀ w, Pipeline.arrRef spec0 w ≠ r) (h0 : r ∉ pre0_W) (h1 : r ∉ pre1_W) (h2 : r ∉ pre2_W)
    (h3 : r ∉ agg1_W) : W5 m ρ c (Proc.devRef .tc r) = m ((c : Thread nD τ).loc r) :=
  (agg1_keeps (W4 m ρ c) r h3).trans (W4_launch m ρ c r hr h0 h1 h2)

theorem W5_v3 (c : Dev nD) : W5 m ρ c (Proc.devRef .tc main_v3) = val_main_v3 (F := Ideal) (a1 m c) :=
  (agg1_keeps (W4 m ρ c) main_v3 (by decide)).trans (W4_v3 m ρ c)
theorem W5_v6 (c : Dev nD) : W5 m ρ c (Proc.devRef .tc main_v6) = val_main_v6 (F := Ideal) (a1 m c) :=
  (agg1_keeps (W4 m ρ c) main_v6 (by decide)).trans (W4_v6 m ρ c)
theorem W5_v31 (c : Dev nD) : W5 m ρ c (Proc.devRef .tc main_v31) = val_main_v31 (F := Ideal) (a1 m c) :=
  (agg1_keeps (W4 m ρ c) main_v31 (by decide)).trans (W4_v31 m ρ c)

/-! ### Regions 1 and 2 -/

theorem W6_v46 (h0 : Fact0) (h1 : Fact1) (c : Dev nD) :
    W6 m ρ c (Proc.devRef .tc main_v46) = val_main_v49 (F := Ideal) (a0 m c) (a1 m c) (a4 m c) (a5 m c) := by
  refine (W6_arr m ρ c 2).trans ((h1 (V5 m ρ) c).trans ?_)
  show maximumf
      (addf (W5 m ρ c (Proc.devRef .tc main_v45))
        (broadcastInDim Cert.ReferenceIdeal.S100000x128 ![0, 1] Cert.ReferenceIdeal.Facts₀.bcast_S1x128_S100000x128_0_1
          (broadcastInDim Cert.ReferenceIdeal.S1x128 ![1] Cert.ReferenceIdeal.Facts₀.bcast_S128_S1x128_1 (W5 m ρ c (Proc.devRef .tc main_arg5)))))
      (broadcastInDim Cert.ReferenceIdeal.S100000x128 ![] Cert.ReferenceIdeal.Facts₀.bcast_S_S100000x128 (constant (F := Ideal) Cert.ReferenceIdeal.S_ .f32 0x00000000#32)) = _
  rw [W5_v45 m ρ h0 c, W5_launch m ρ c main_arg5 (by decide) (by decide) (by decide) (by decide) (by decide)]
  rfl

/-- A buffer that is none of region 1's arrays keeps, at region 1's exit, what it held at its entry. -/
theorem W6_launch (c : Dev nD) (r : Ref sig .tc) (hr1 : ∀ w, Pipeline.arrRef spec1 w ≠ r) (hr : ∀ w, Pipeline.arrRef spec0 w ≠ r)
    (h0 : r ∉ pre0_W) (h1 : r ∉ pre1_W) (h2 : r ∉ pre2_W) (h3 : r ∉ agg1_W) : W6 m ρ c (Proc.devRef .tc r) = m ((c : Thread nD τ).loc r) :=
  (W6_of_ne m ρ c r hr1).trans (W5_launch m ρ c r hr h0 h1 h2 h3)

theorem W7_v47 (h0 : Fact0) (h1 : Fact1) (h2 : Fact2) (c : Dev nD) :
    W7 m ρ c (Proc.devRef .tc main_v47) = val_main_v50 (F := Ideal) (a0 m c) (a1 m c) (a4 m c) (a5 m c) (a6 m c) := by
  refine (W7_arr m ρ c 2).trans ((h2 (V6 m ρ) c).trans ?_)
  show Host.dotGeneral (F := Ideal) (φ₁ := .f32) (φ₂ := .f32) Cert.ReferenceIdeal.dot_S100000x128_S128x64_S100000x64_1_0_0_1_n_n none
      (W6 m ρ c (Proc.devRef .tc main_v46)) (W6 m ρ c (Proc.devRef .tc main_arg6)) = _
  rw [W6_v46 m ρ h0 h1 c, W6_launch m ρ c main_arg6 (by decide) (by decide) (by decide) (by decide) (by decide) (by decide)]
  rfl

theorem W7_v3 (c : Dev nD) : W7 m ρ c (Proc.devRef .tc main_v3) = val_main_v3 (F := Ideal) (a1 m c) :=
  (W7_of_ne m ρ c main_v3 (by decide)).trans ((W6_of_ne m ρ c main_v3 (by decide)).trans (W5_v3 m ρ c))
theorem W7_v6 (c : Dev nD) : W7 m ρ c (Proc.devRef .tc main_v6) = val_main_v6 (F := Ideal) (a1 m c) :=
  (W7_of_ne m ρ c main_v6 (by decide)).trans ((W6_of_ne m ρ c main_v6 (by decide)).trans (W5_v6 m ρ c))
theorem W7_v31 (c : Dev nD) : W7 m ρ c (Proc.devRef .tc main_v31) = val_main_v31 (F := Ideal) (a1 m c) :=
  (W7_of_ne m ρ c main_v31 (by decide)).trans ((W6_of_ne m ρ c main_v31 (by decide)).trans (W5_v31 m ρ c))

/-- A buffer that is no array of regions 0, 1, 2 and that no stretch so far writes holds its launch contents at region 2's exit. -/
theorem W7_launch (c : Dev nD) (r : Ref sig .tc) (hr2 : ∀ w, Pipeline.arrRef spec2 w ≠ r) (hr1 : ∀ w, Pipeline.arrRef spec1 w ≠ r)
    (hr : ∀ w, Pipeline.arrRef spec0 w ≠ r) (h0 : r ∉ pre0_W) (h1 : r ∉ pre1_W) (h2 : r ∉ pre2_W) (h3 : r ∉ agg1_W) :
    W7 m ρ c (Proc.devRef .tc r) = m ((c : Thread nD τ).loc r) :=
  (W7_of_ne m ρ c r hr2).trans (W6_launch m ρ c r hr1 hr h0 h1 h2 h3)

/-! ### The second aggregation, region 3 and the result -/

theorem W8_v70 (h0 : Fact0) (h1 : Fact1) (h2 : Fact2) (c : Dev nD) :
    W8 m ρ c (Proc.devRef .tc main_v70)
      = Host.gather Cert.ReferenceIdeal.gather_S100000x64_S1000000x1_S1000000x64_1_0_n_n_0_1_164
          (val_main_v63 (F := Ideal) (a0 m c) (a1 m c) (a4 m c) (a5 m c) (a6 m c)) (val_main_v75 (F := Ideal) (a2 m c) (a3 m c)) :=
  agg2_v70 (W7 m ρ c) (a0 m c) (a1 m c) (a2 m c) (a3 m c) (a4 m c) (a5 m c) (a6 m c) (W7_v47 m ρ h0 h1 h2 c) (W7_v3 m ρ c) (W7_v6 m ρ c) (W7_v31 m ρ c)
    (W7_launch m ρ c main_arg2 (by decide) (by decide) (by decide) (by decide) (by decide) (by decide) (by decide))
    (W7_launch m ρ c main_arg3 (by decide) (by decide) (by decide) (by decide) (by decide) (by decide) (by decide))

theorem W8_v79 (h0 : Fact0) (h1 : Fact1) (h2 : Fact2) (c : Dev nD) :
    W8 m ρ c (Proc.devRef .tc main_v79)
      = Host.gather Cert.ReferenceIdeal.gather_S100000x64_S1000000x1_S1000000x64_1_0_n_n_0_1_164
          (val_main_v63 (F := Ideal) (a0 m c) (a1 m c) (a4 m c) (a5 m c) (a6 m c)) (val_main_v84 (F := Ideal) (a2 m c) (a3 m c)) :=
  agg2_v79 (W7 m ρ c) (a0 m c) (a1 m c) (a2 m c) (a3 m c) (a4 m c) (a5 m c) (a6 m c) (W7_v47 m ρ h0 h1 h2 c) (W7_v3 m ρ c) (W7_v6 m ρ c) (W7_v31 m ρ c)
    (W7_launch m ρ c main_arg2 (by decide) (by decide) (by decide) (by decide) (by decide) (by decide) (by decide))
    (W7_launch m ρ c main_arg3 (by decide) (by decide) (by decide) (by decide) (by decide) (by decide) (by decide))

theorem W8_arg7 (c : Dev nD) : W8 m ρ c (Proc.devRef .tc main_arg7) = a7 m c :=
  (agg2_keeps (W7 m ρ c) main_arg7 (by decide)).trans
    (W7_launch m ρ c main_arg7 (by decide) (by decide) (by decide) (by decide) (by decide) (by decide) (by decide))

/-- THE RESULT: the buffer the program returns holds, at the end of the run, the reference's result stage of the
    argument arrays as launched. -/
theorem result (h0 : Fact0) (h1 : Fact1) (h2 : Fact2) (h3 : Fact3) (hd : FactD) (c : Dev nD) :
    W10 m ρ c (Proc.devRef .tc main_v81)
      = val_main_v87 (F := Ideal) (a0 m c) (a1 m c) (a2 m c) (a3 m c) (a4 m c) (a5 m c) (a6 m c) (a7 m c) := by
  have h80 : W9 m ρ c (Proc.devRef .tc main_v80)
      = score (W8 m ρ c (Proc.devRef .tc main_v70)) (W8 m ρ c (Proc.devRef .tc main_v79)) (W8 m ρ c (Proc.devRef .tc main_arg7)) :=
    (W9_arr m ρ c 3).trans (h3 (V8 m ρ) c)
  rw [W8_v70 m ρ h0 h1 h2 c, W8_v79 m ρ h0 h1 h2 c, W8_arg7 m ρ c] at h80
  refine (fin_v81 (W9 m ρ c) _ h80).trans ((hd _ _ _ _).trans ?_)
  rfl

end Run

end Cert.KernelIdeal.Thread

end
-- ==== Proof.lean ====
/-
  A two-layer graph convolution followed by an edge-score decode, against its jnp reference, over the extended reals.
  Both programs share their host code: the self-loop index vectors, the degree normalisation D^(-1/2), and the
  gather-scale-scatter aggregation of each layer. They differ in four places, each a pallas_call on the kernel's side:
    * x·W1 and h·W2 are computed row block by row block, into a zero accumulator, from operands cast to a narrower
      format; at the ideal instance a change of format is the identity and the block products are the rows of the one
      whole product the reference takes (a sum over the contraction index either way);
    * relu(agg + b1) is computed block by block as max(agg + b1, 0), the same three operations the reference applies
      to the whole array;
    * the decode adds the bias b2 AFTER gathering the rows of the second aggregation, where the reference adds it to
      every row first and gathers afterwards; a row gather picks whole rows without looking at their values, so the two
      orders give the same rows; the row sums of the products are then the same sums over the 64 features, the kernel's
      laid out as one column and reshaped flat.
  No law of the extended reals beyond reading these operations at an index is needed, and none needs finiteness: the
  precondition is never opened. The kernel's run is read back boundary by boundary (Proof/Thread.lean) from the values
  the four regions leave (Proof/Region0 … Region3.lean) and the decode lemma (Proof/Decode.lean); the reference's run
  is the composed term of its operations, read one stage at a time.
-/
import proofs.«153153_j22892175688228_1_alg».proof.Defs
import proofs.«153153_j22892175688228_1_alg».proof.Proof.Gen.Kernel
import proofs.«153153_j22892175688228_1_alg».proof.Proof.Gen.Kernel.Frame
import proofs.«153153_j22892175688228_1_alg».proof.Proof.Gen.KernelIdeal
import proofs.«153153_j22892175688228_1_alg».proof.Proof.Gen.KernelIdeal.Frame
import proofs.«153153_j22892175688228_1_alg».proof.Proof.Gen.ReferenceIdeal
import proofs.«153153_j22892175688228_1_alg».proof.Proof.Gen.Pre_finite_inputs
import proofs.«153153_j22892175688228_1_alg».proof.Proof.KernelRun
import proofs.«153153_j22892175688228_1_alg».proof.Proof.RefRun
import proofs.«153153_j22892175688228_1_alg».proof.Proof.RefRead
import proofs.«153153_j22892175688228_1_alg».proof.Proof.Region0
import proofs.«153153_j22892175688228_1_alg».proof.Proof.Region1
import proofs.«153153_j22892175688228_1_alg».proof.Proof.Region2
import proofs.«153153_j22892175688228_1_alg».proof.Proof.Region3
import proofs.«153153_j22892175688228_1_alg».proof.Proof.Decode
import proofs.«153153_j22892175688228_1_alg».proof.Proof.Thread
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories agreeing on the arguments both programs end with the reference's result stage of the arguments: the
    kernel's run by the boundary-by-boundary reading, the reference's by its composed term. -/
theorem algebraic : Cert.algebraic_KernelIdeal_ReferenceIdeal := by
  intro m ρ m' ρ' _ hagree
  refine ⟨fun c => Cert.KernelIdeal.Gen.W10 m ρ c (Proc.devRef .tc Cert.KernelIdeal.main_v81),
    Cert.KernelIdeal.Run.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v87_eq]
  obtain ⟨e0, e1, e2, e3, e4, e5, e6, e7⟩ := hagree c
  rw [e0, e1, e2, e3, e4, e5, e6, e7]
  exact (Cert.KernelIdeal.Thread.result m ρ
    (fun V c => Cert.KernelIdeal.Region0.final V c) (fun V c => Cert.KernelIdeal.Region1.final V c)
    (fun V c => Cert.KernelIdeal.Region2.final V c) (fun V c => Cert.KernelIdeal.Region3.final V c)
    (fun A I0 I1 b => Cert.KernelIdeal.Decode.tail_eq A I0 I1 b) c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
